-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 17
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S8192x4096, .bf16⟩
  | .hbm, ⟨13, _⟩ => ⟨S4096x4096, .bf16⟩
  | .hbm, ⟨14, _⟩ => ⟨S1x4096, .f32⟩
  | .hbm, ⟨15, _⟩ => ⟨S8192x4096, .f32⟩
  | .hbm, ⟨16, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  transposes_S4096x4096_S4096x4096_1_0 : S4096x4096.Transposes [1, 0] S4096x4096
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S4096x16_S16x4096_S4096x4096_1_0_0_1_n_n_wf : DotDims.WF S4096x16 S16x4096 S4096x4096 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4096x4096, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4096x16_S16x4096_S4096x4096_1_0_0_1_n_n_wf : DotDims.WF S4096x16 S16x4096 S4096x4096 [1] [0] [0] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.Pieces.lean ====
/-
  What one grid point of the matmul body leaves behind, as pure functions of what it loads.

  The body keeps a running sum in a scratch block. At the first point of a contraction run it stores the zero
  block, reads it back and adds the product of the two input blocks; at every later point it adds the product to what
  the point before left; at the last point it also stores the running sum plus the bias row into the output block.
  Each statement below reads the stores of one control case back: the scratch ends at
  `step acc a b = acc + a · b` (with `acc` the zero block at a run's first point), the output block at
  `emit (step acc a b) bias`.
-/
import proofs.«142965_j13726715478236_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Lora.Pieces

open Cert.KernelIdeal Cert.KernelIdeal.Gen

variable {F : FTy → Type} [FloatOps F]

theorem hz : (![0, 0] : Fin 2 → Nat) = fun _ => 0 := funext fun a => by fin_cases a <;> rfl

/-- One accumulation step: the running sum plus the product of the two input blocks. -/
abbrev step (acc : Vec F S1024x1024 .f32) (a b : Vec F S1024x1024 .bf16) : FVec F S1024x1024 .f32 := k0_pay2 acc a b
/-- The zero block a contraction run starts from. -/
abbrev zero : FVec F S1024x1024 .f32 := k0_pay1
/-- The output block: the finished sum plus the bias row broadcast down the rows. -/
abbrev emit (acc : Vec F S1024x1024 .f32) (bias : Vec F S1x1024 .f32) : FVec F S1024x1024 .f32 := k0_pay3 acc bias

/-- First point of a run: the scratch ends at the zero block plus the product. -/
theorem scratch_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = step (zero (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle point of a run: the scratch ends at what the point before left plus the product. -/
theorem scratch_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = step xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) hz]
  simp only [View.readAt_eq_ld, harg3.read_unread, harg4.read_unread, harg7.read_unread, View.ld_unit_zero (S := S1024x1024) hz]

/-- Last point of a run: the scratch likewise … -/
theorem scratch_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = step xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) hz]
  simp only [View.readAt_eq_ld, harg3.read_unread, harg4.read_unread, harg7.read_unread, View.ld_unit_zero (S := S1024x1024) hz]

/-- … and the output block ends at the finished sum plus the bias row. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = emit (step xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) hz, View.readCov_unit_zero (S := S1024x1024) _ hz]
  simp only [View.readAt_eq_ld, harg3.read_unread, harg4.read_unread, harg5.read_unread, harg7.read_unread,
    View.ld_unit_zero (S := S1024x1024) hz, View.ld_unit_zero (S := S1x1024) hz]

end Cert.Lora.Pieces

end
-- ==== Proof.Chain.lean ====
/-
  The running sum across a contraction run, and what the last point of a run writes back.

  The grid is 8 × 4 × 4 with the contraction axis innermost: points 4q, 4q+1, 4q+2, 4q+3 share one output block and
  walk the four 1024-wide slabs of the contracted axis. The scratch after the first of them is the zero block plus that
  point's product, after each later one what the point before left plus that point's product; the fourth point stores
  the finished sum plus the bias row. Because the first point of a run resets the scratch, four steps back from the
  last point reach a value that depends on nothing earlier.
-/
import proofs.«142965_j13726715478236_1_alg».proof.Proof.Pieces

noncomputable section

open Idealize.ShloMosaic Idealize.ShloMosaic.TcCoe Idealize.SL.Sem

namespace Cert.Lora.Chain

open Cert.KernelIdeal Cert.KernelIdeal.Gen Cert.Lora.Pieces

variable {F : FTy → Type} [FloatOps F]
variable (m : (ℓ : Loc nD τ sig) → Buf (Elt F) ℓ)

/-- The three input blocks of a grid point, at their literal types: a row slab of the left operand, a column slab of
    the right operand, a piece of the bias row. -/
abbrev ablk (c : Dev nD) (t : Fin cfg0.N) : Vec F S1024x1024 .bf16 := iblk m c 0 t
abbrev bblk (c : Dev nD) (t : Fin cfg0.N) : Vec F S1024x1024 .bf16 := iblk m c 1 t
abbrev biasblk (c : Dev nD) (t : Fin cfg0.N) : Vec F S1x1024 .f32 := iblk m c 2 t

/-- After the first point of a run the scratch holds the zero block plus that point's product. -/
theorem sc_first (c : Dev nD) (n : ℕ) (hn : n < cfg0.N) (h : n % 4 = 0) :
    (outsAt0 m c n hn).2 = step (zero (F := F)) (ablk m c ⟨n, hn⟩) (bblk m c ⟨n, hn⟩) := by
  have h1 : ¬ n % 4 = 3 := by omega
  rw [outsAt0_A m c ⟨n, hn⟩ h h1]
  dsimp only
  exact scratch_A (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h) (fun h' => h1 ((hcond0_1 ⟨n, hn⟩).mp h')) (iblk m c 0 ⟨n, hn⟩) (iblk m c 1 ⟨n, hn⟩) (iblk m c 2 ⟨n, hn⟩)

/-- After any later point of a run it holds what the point before left plus that point's product. -/
theorem sc_next (c : Dev nD) (n : ℕ) (hn : n + 1 < cfg0.N) (h : ¬ (n + 1) % 4 = 0) :
    (outsAt0 m c (n + 1) hn).2 = step (outsAt0 m c n (Nat.lt_of_succ_lt hn)).2 (ablk m c ⟨n + 1, hn⟩) (bblk m c ⟨n + 1, hn⟩) := by
  by_cases h1 : (n + 1) % 4 = 3
  · rw [outsAt0_C m c ⟨n + 1, hn⟩ h h1]
    dsimp only
    exact scratch_C (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h' => h ((hcond0_0 ⟨n + 1, hn⟩).mp h')) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2
  · rw [outsAt0_B m c ⟨n + 1, hn⟩ h h1]
    dsimp only
    exact scratch_B (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h' => h ((hcond0_0 ⟨n + 1, hn⟩).mp h')) (fun h' => h1 ((hcond0_1 ⟨n + 1, hn⟩).mp h')) (iblk m c 0 ⟨n + 1, hn⟩) (iblk m c 1 ⟨n + 1, hn⟩) (iblk m c 2 ⟨n + 1, hn⟩) (outsAt0 m c n (Nat.lt_of_succ_lt hn)).2

/-- The last point of a run stores the finished sum plus the bias row. -/
theorem out_last (c : Dev nD) (n : ℕ) (hn : n + 1 < cfg0.N) (h1 : (n + 1) % 4 = 3) :
    (outsAt0 m c (n + 1) hn).1 = emit (step (outsAt0 m c n (Nat.lt_of_succ_lt hn)).2 (ablk m c ⟨n + 1, hn⟩) (bblk m c ⟨n + 1, hn⟩)) (biasblk m c ⟨n + 1, hn⟩) := by
  have h : ¬ (n + 1) % 4 = 0 := by omega
  rw [outsAt0_C m c ⟨n + 1, hn⟩ h h1]
  dsimp only
  exact out_C (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h' => h ((hcond0_0 ⟨n + 1, hn⟩).mp h')) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2

/-- So the block the last point of the run starting at point `n` writes back is the four products added in order to
    the zero block, plus the bias row. -/
theorem run_out (c : Dev nD) (n : ℕ) (hn : n + 1 + 1 + 1 < cfg0.N) (h : n % 4 = 0) :
    (outsAt0 m c (n + 1 + 1 + 1) hn).1
      = emit (step (step (step (step (zero (F := F))
            (ablk m c ⟨n, by omega⟩) (bblk m c ⟨n, by omega⟩))
            (ablk m c ⟨n + 1, by omega⟩) (bblk m c ⟨n + 1, by omega⟩))
            (ablk m c ⟨n + 1 + 1, by omega⟩) (bblk m c ⟨n + 1 + 1, by omega⟩))
            (ablk m c ⟨n + 1 + 1 + 1, hn⟩) (bblk m c ⟨n + 1 + 1 + 1, hn⟩))
          (biasblk m c ⟨n + 1 + 1 + 1, hn⟩) := by
  rw [out_last m c (n + 1 + 1) hn (by omega), sc_next m c (n + 1) (by omega) (by omega), sc_next m c n (by omega) (by omega),
    sc_first m c n (by omega) h]

end Cert.Lora.Chain

end
-- ==== Proof.Blocks.lean ====
/-
  Where each input block of a grid point sits in its array.

  Point t of the 8 × 4 × 4 grid has coordinates (t / 16, t / 4 % 4, t % 4) = (row block, column block, contraction
  slab). The left operand's block is rows 1024·(t/16) …, columns 1024·(t%4) … of the [8192, 4096] array; the right
  operand's block is rows 1024·(t%4) …, columns 1024·(t/4%4) … of the [4096, 4096] array; the bias piece is columns
  1024·(t/4%4) … of the [1, 4096] row; the output block is rows 1024·(t/16) …, columns 1024·(t/4%4) ….
-/
import proofs.«142965_j13726715478236_1_alg».proof.Proof.Chain
import Idealize.ShloMosaic.Lib.ValueIdx

noncomputable section

open Idealize.ShloMosaic Idealize.ShloMosaic.TcCoe Idealize.SL.Sem Idealize.ShloMosaic.ValueIdx

namespace Cert.Lora.Blocks

open Cert.KernelIdeal Cert.KernelIdeal.Gen Cert.Lora.Chain

variable {F : FTy → Type} [FloatOps F]
variable (m : (ℓ : Loc nD τ sig) → Buf (Elt F) ℓ)

/-- The printed index maps in closed form, decided over the 128 points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem lt_N (t : Fin cfg0.N) : t.val < 128 := lt_of_lt_of_eq t.isLt (show cfg0.N = 128 from N_0)

/-- The three staged arrays as the region finds them, at their literal types. -/
abbrev lhsArr (c : Dev nD) : FVec F S8192x4096 .bf16 := V m c main_v6
abbrev rhsArr (c : Dev nD) : FVec F S4096x4096 .bf16 := V m c main_v7
abbrev biasArr (c : Dev nD) : FVec F S1x4096 .f32 := V m c main_v8

/-- The left operand's block of the run starting at point `n`, at its slab `j`, read at (p, k). -/
theorem ablk_at (c : Dev nD) (n j : ℕ) (hnj : n + j < cfg0.N) (h : n % 4 = 0) (hj : j < 4) (p k : Fin 1024) :
    ablk m c ⟨n + j, hnj⟩ (ix2 p k)
      = lhsArr m c (ix2 ⟨1024 * (n / 16) + p.val, by have := lt_N ⟨n + j, hnj⟩; have := p.isLt; dsimp only at *; omega⟩
          ⟨1024 * j + k.val, by have := k.isLt; omega⟩) := by
  obtain ⟨e0, e1, -⟩ := idx_facts ⟨n + j, hnj⟩
  have hN := lt_N ⟨n + j, hnj⟩
  dsimp only at e0 e1 hN
  unfold ablk iblk
  rw [View.read_apply]
  show V m c main_v6 _ = V m c main_v6 _
  congr 1
  funext a; apply Fin.ext
  match a with
  | ⟨0, _⟩ => show win0_0.index ⟨n + j, hnj⟩ (0 : Fin 2) * 1024 + 1 * p.val = 1024 * (n / 16) + p.val; rw [e0]; omega
  | ⟨1, _⟩ => show win0_0.index ⟨n + j, hnj⟩ (1 : Fin 2) * 1024 + 1 * k.val = 1024 * j + k.val; rw [e1]; omega

/-- The right operand's block of that run at slab `j`, read at (k, q). -/
theorem bblk_at (c : Dev nD) (n j : ℕ) (hnj : n + j < cfg0.N) (h : n % 4 = 0) (hj : j < 4) (k q : Fin 1024) :
    bblk m c ⟨n + j, hnj⟩ (ix2 k q)
      = rhsArr m c (ix2 ⟨1024 * j + k.val, by have := k.isLt; omega⟩
          ⟨1024 * (n / 4 % 4) + q.val, by have := q.isLt; omega⟩) := by
  obtain ⟨-, -, e0, e1, -⟩ := idx_facts ⟨n + j, hnj⟩
  have hN := lt_N ⟨n + j, hnj⟩
  dsimp only at e0 e1 hN
  unfold bblk iblk
  rw [View.read_apply]
  show V m c main_v7 _ = V m c main_v7 _
  congr 1
  funext a; apply Fin.ext
  match a with
  | ⟨0, _⟩ => show win0_1.index ⟨n + j, hnj⟩ (0 : Fin 2) * 1024 + 1 * k.val = 1024 * j + k.val; rw [e0]; omega
  | ⟨1, _⟩ => show win0_1.index ⟨n + j, hnj⟩ (1 : Fin 2) * 1024 + 1 * q.val = 1024 * (n / 4 % 4) + q.val; rw [e1]; omega

/-- The bias piece of that run, read at (0, q). -/
theorem biasblk_at (c : Dev nD) (n j : ℕ) (hnj : n + j < cfg0.N) (h : n % 4 = 0) (hj : j < 4) (q : Fin 1024) :
    biasblk m c ⟨n + j, hnj⟩ (ix2 (0 : Fin 1) q)
      = biasArr m c (ix2 (0 : Fin 1) ⟨1024 * (n / 4 % 4) + q.val, by have := q.isLt; omega⟩) := by
  obtain ⟨-, -, -, -, e0, e1, -⟩ := idx_facts ⟨n + j, hnj⟩
  have hN := lt_N ⟨n + j, hnj⟩
  dsimp only at e0 e1 hN
  unfold biasblk iblk
  rw [View.read_apply]
  show V m c main_v8 _ = V m c main_v8 _
  congr 1
  funext a; apply Fin.ext
  match a with
  | ⟨0, _⟩ => show win0_2.index ⟨n + j, hnj⟩ (0 : Fin 2) * 1 + 1 * 0 = 0; rw [e0]
  | ⟨1, _⟩ => show win0_2.index ⟨n + j, hnj⟩ (1 : Fin 2) * 1024 + 1 * q.val = 1024 * (n / 4 % 4) + q.val; rw [e1]; omega

end Cert.Lora.Blocks

end
-- ==== Proof.PointValue.lean ====
/-
  One grid point's arithmetic over the extended reals, read at an index.

  At a block index (p, q):  the zero block is 0;  one accumulation step is  acc[p, q] + ∑ k, a[p, k] · b[k, q]
  (the matrix product into a zero accumulator is the plain sum over the contracted axis; a change of float format is
  the identity);  the emitted output block is  acc[p, q] + bias[0, q].
-/
import proofs.«142965_j13726715478236_1_alg».proof.Proof.Pieces
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.Lora.PointValue

open Cert.KernelIdeal Cert.KernelIdeal.Gen Cert.Lora.Pieces

/-- The block product's dimension numbers: rows × contraction times contraction × columns. -/
abbrev dd := dot_S1024x1024_S1024x1024_S1024x1024_1_0_0_1_n_n

theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into the zero accumulator, at (p, q): the sum over the contracted axis. -/
theorem matmul_zero_apply (a b : FVec Ideal S1024x1024 .bf16) (p q : Fin 1024) :
    matmul (F := Ideal) dot_S1024x1024_S1024x1024_S1024x1024_1_0_0_1_n_n none a b (constant S1024x1024 .f32 0x00000000#32) (ix2 p q)
      = ∑ k : Fin 1024, a (ix2 p k) * b (ix2 k q) := by
  show FloatOps.matmul _ _ _ _ _ _ = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- The zero block reads 0. -/
theorem zero_apply (j : S1024x1024.Idx) : (zero (F := Ideal)) j = 0 := by
  unfold zero k0_pay1
  rw [shapeCast_self]
  exact Ideal.ofBits_zero_f32

/-- One accumulation step at (p, q). -/
theorem step_apply (acc : Vec Ideal S1024x1024 .f32) (a b : Vec Ideal S1024x1024 .bf16) (p q : Fin 1024) :
    step (F := Ideal) acc a b (ix2 p q) = acc (ix2 p q) + ∑ k : Fin 1024, a (ix2 p k) * b (ix2 k q) := by
  unfold step k0_pay2
  simp only [shapeCast_self]
  exact congrArg (acc (ix2 p q) + ·) (matmul_zero_apply a b p q)

/-- The emitted output block at (p, q). -/
theorem emit_apply (acc : Vec Ideal S1024x1024 .f32) (bias : Vec Ideal S1x1024 .f32) (p q : Fin 1024) :
    emit (F := Ideal) acc bias (ix2 p q) = acc (ix2 p q) + bias (ix2 (0 : Fin 1) q) := by
  unfold emit k0_pay3
  simp only [shapeCast_self]
  refine congrArg (acc (ix2 p q) + ·) ?_
  exact broadcastTo_apply bias broadcasts_S1x1024_S1024x1024 (ix2 p q) (ix2 (0 : Fin 1) q) (fun a => by
    match a with
    | ⟨0, _⟩ => rfl
    | ⟨1, _⟩ => rfl)

end Cert.Lora.PointValue

end
-- ==== Proof.Spec.lean ====
/-
  The two arrangements of a linear layer with a low-rank adapter, as whole-array functions of the five argument
  arrays over the extended reals.

  With x : [4, 2048, 4096], W : [4096, 4096] (output row, input column), b : [4096], A : [16, 4096], B : [4096, 16],
  the adapter's update is Δ[o, i] = ∑ r, B[o, r] · A[r, i], and s is the scale the programs spell as one f32 word.

    folded    [p, q, o] = (∑ i, x[p, q, i] · (W[o, i] + s · Δ[o, i])) + b[o]
    unfolded  [p, q, o] = ((∑ i, x[p, q, i] · W[o, i]) + b[o]) + (∑ i, x[p, q, i] · Δ[o, i]) · s

  The first is one product with the effective weight W + s·Δ; the second adds the base product and the scaled
  adapter product. They agree where every entry is a real number (distributivity fails at the infinities).
-/
import Idealize.ShloMosaic.Lib.ValueIdx
import Idealize.ShloMosaic.PureOps.Ideal

noncomputable section

namespace Cert.Lora

open Idealize.ShloMosaic Idealize.ShloMosaic.ValueIdx

abbrev SX : Shape := ⟨3, ![4, 2048, 4096]⟩
abbrev SW : Shape := ⟨2, ![4096, 4096]⟩
abbrev SBias : Shape := ⟨1, ![4096]⟩
abbrev SA : Shape := ⟨2, ![16, 4096]⟩
abbrev SB : Shape := ⟨2, ![4096, 16]⟩

/-- The adapter's scale, as both programs spell it: the f32 word of 2.0. -/
abbrev scale : EReal := Ideal.ofBits .f32 0x40000000#32

/-- The adapter's update at output row `o` and input column `i`: ∑ r, B[o, r] · A[r, i]. -/
def delta (A : FVec Ideal SA .f32) (B : FVec Ideal SB .f32) (o i : Fin 4096) : EReal :=
  ∑ r : Fin 16, B (ix2 o r) * A (ix2 r i)

/-- One product with the effective weight, then the bias. -/
def folded (x : FVec Ideal SX .f32) (W : FVec Ideal SW .f32) (b : FVec Ideal SBias .f32)
    (A : FVec Ideal SA .f32) (B : FVec Ideal SB .f32) : FVec Ideal SX .f32 :=
  fun j => (∑ i : Fin 4096, x (ix3 (j 0) (j 1) i) * (W (ix2 (j 2) i) + scale * delta A B (j 2) i)) + b (ix1 (j 2))

/-- The base product with its bias, plus the scaled adapter product. -/
def unfolded (x : FVec Ideal SX .f32) (W : FVec Ideal SW .f32) (b : FVec Ideal SBias .f32)
    (A : FVec Ideal SA .f32) (B : FVec Ideal SB .f32) : FVec Ideal SX .f32 :=
  fun j => ((∑ i : Fin 4096, x (ix3 (j 0) (j 1) i) * W (ix2 (j 2) i)) + b (ix1 (j 2)))
    + (∑ i : Fin 4096, x (ix3 (j 0) (j 1) i) * delta A B (j 2) i) * scale

/-- Every entry of an array is a real number. -/
def AllReal {s : Shape} (v : FVec Ideal s .f32) : Prop := ∀ j, ∃ r : ℝ, v j = (r : EReal)

end Cert.Lora

end
-- ==== Proof.HostPrefix.lean ====
import proofs.«142965_j13726715478236_1_alg».proof.Proof.Spec
import proofs.«142965_j13726715478236_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.Lora.HostPrefix

open Cert.KernelIdeal Cert.KernelIdeal.Gen Idealize.ShloMosaic Idealize.ShloMosaic.TcCoe Idealize.ShloMosaic.ValueIdx Idealize.ShloMosaic.StableHlo

variable (m : (ℓ : Loc nD τ sig) → Buf (Elt Ideal) ℓ)

/-! # The host operations before the kernel region, read at an index

Before its one kernel region the program forms three arrays from its arguments: the activations flattened to
`[8192, 4096]`, the effective weight `(W + 2 · (B × A))ᵀ`, and the bias as a `[1, 4096]` row. The two
conversions to bf16 are the identity over the extended reals. Each array is first written as the composed term of the
operations that make it, then read at one index. -/

/-! ## The low-rank product at an index -/

local notation "𝔻" => dot_S4096x16_S16x4096_S4096x4096_1_0_0_1_n_n

/-- Left operand, axis 0 (kept): the output row. -/
theorem lhsAxis0 (j : S4096x4096.Idx) (q : (𝔻).contr.Idx) : ((𝔻).lhsIdx j q 0).val = (j 0).val := by
  unfold DotDims.lhsIdx
  rw [dif_neg (show ¬(0 : Fin S4096x16.rank) ∈ (𝔻).lhsBatch by decide),
    dif_pos (show (0 : Fin S4096x16.rank) ∈ (𝔻).lhsNonContracting by decide)]
  rfl

/-- Left operand, axis 1 (contracted): the summation index. -/
theorem lhsAxis1 (j : S4096x4096.Idx) (q : (𝔻).contr.Idx) : ((𝔻).lhsIdx j q 1).val = (q ⟨0, by decide⟩).val :=
  (𝔻).lhsIdx_val_of_single rfl j q

/-- Right operand, axis 0 (contracted): the summation index. -/
theorem rhsAxis0 (j : S4096x4096.Idx) (q : (𝔻).contr.Idx) : ((𝔻).rhsIdx j q 0).val = (q ⟨0, by decide⟩).val :=
  (𝔻).rhsIdx_val_of_single rfl j q

/-- Right operand, axis 1 (kept): the output column. -/
theorem rhsAxis1 (j : S4096x4096.Idx) (q : (𝔻).contr.Idx) : ((𝔻).rhsIdx j q 1).val = (j 1).val := by
  unfold DotDims.rhsIdx
  rw [dif_neg (show ¬(1 : Fin S16x4096.rank) ∈ (𝔻).rhsBatch by decide),
    dif_pos (show (1 : Fin S16x4096.rank) ∈ (𝔻).rhsNonContracting by decide)]
  rfl

/-- `(B × A)[o, i] = ∑ r, B[o, r] · A[r, i]`: the one contracted axis has sixteen positions. -/
theorem lowRank_apply (B : FVec Ideal S4096x16 .f32) (A : FVec Ideal S16x4096 .f32) (o i : Fin 4096) :
    (Host.dotGeneral (F := Ideal) 𝔻 none B A : FVec Ideal S4096x4096 .f32) (ix2 o i)
      = ∑ r : Fin 16, B (ix2 o r) * A (ix2 r i) := by
  simp only [Host.dotGeneral]
  rw [Ideal.dotGeneral_apply, ← Equiv.sum_comp (contrEquiv1 𝔻 16 rfl rfl).symm]
  refine Finset.sum_congr rfl fun r _ => ?_
  have hr := contrEquiv1_symm_val 𝔻 16 rfl rfl r
  have el : (𝔻).lhsIdx (ix2 o i) ((contrEquiv1 𝔻 16 rfl rfl).symm r) = ix2 o r := funext fun a => Fin.ext (by
    match a with
    | ⟨0, _⟩ => exact lhsAxis0 _ _
    | ⟨1, _⟩ => exact (lhsAxis1 _ _).trans hr)
  have er : (𝔻).rhsIdx (ix2 o i) ((contrEquiv1 𝔻 16 rfl rfl).symm r) = ix2 r i := funext fun a => Fin.ext (by
    match a with
    | ⟨0, _⟩ => exact (rhsAxis0 _ _).trans hr
    | ⟨1, _⟩ => exact rhsAxis1 _ _)
  rw [el, er]

/-! ## The three arrays as composed terms -/

/-- Core `c`'s five argument arrays as launched, each at its literal shape. -/
abbrev argX (c : Dev nD) : FVec Ideal S4x2048x4096 .f32 := m ((c : Thread nD τ).loc main_arg0)
abbrev argW (c : Dev nD) : FVec Ideal S4096x4096 .f32 := m ((c : Thread nD τ).loc main_arg1)
abbrev argBias (c : Dev nD) : FVec Ideal S4096 .f32 := m ((c : Thread nD τ).loc main_arg2)
abbrev argA (c : Dev nD) : FVec Ideal S16x4096 .f32 := m ((c : Thread nD τ).loc main_arg3)
abbrev argB (c : Dev nD) : FVec Ideal S4096x16 .f32 := m ((c : Thread nD τ).loc main_arg4)

/-- A sum of two extended reals, with the type of both summands fixed. -/
local notation:65 a:65 " +ₑ " b:66 => @HAdd.hAdd EReal EReal EReal _ a b

/-- The activations as the region finds them: the argument flattened, then converted. -/
theorem V_lhs_eq (c : Dev nD) : (V m c main_v6 : S8192x4096.Idx → EReal)
    = truncf .bf16 (shapeCast S8192x4096 (argX m c) shapeCasts_S4x2048x4096_S8192x4096 : FVec Ideal S8192x4096 .f32)
        bitsLt_bf16_f32 := by
  show StableHlo.after hostOps0 (fun b => m (c, b)) (Proc.devRef .tc main_v6) = _
  after_results
  rfl

/-- The weight as the region finds it: the base weight plus twice the low-rank product, transposed, then converted. -/
theorem V_rhs_eq (c : Dev nD) : (V m c main_v7 : S4096x4096.Idx → EReal)
    = truncf .bf16 (transpose S4096x4096 [1, 0]
        (addf (argW m c)
          (mulf (broadcastInDim S4096x4096 ![] bcast_S_S4096x4096 (constant (F := Ideal) S_ .f32 0x40000000#32))
            (Host.dotGeneral (F := Ideal) 𝔻 none (argB m c) (argA m c) : FVec Ideal S4096x4096 .f32)))
        transposes_S4096x4096_S4096x4096_1_0 : FVec Ideal S4096x4096 .f32) bitsLt_bf16_f32 := by
  show StableHlo.after hostOps0 (fun b => m (c, b)) (Proc.devRef .tc main_v7) = _
  after_results

/-- The bias as the region finds it: the argument as a one-row matrix. -/
theorem V_bias_eq (c : Dev nD) : (V m c main_v8 : S1x4096.Idx → EReal)
    = shapeCast S1x4096 (argBias m c) shapeCasts_S4096_S1x4096 := by
  show StableHlo.after hostOps0 (fun b => m (c, b)) (Proc.devRef .tc main_v8) = _
  after_results
  rfl

/-! ## The three reads -/

/-- Row `r` of the flattened activations is row `r % 2048` of batch `r / 2048`. -/
theorem lhs_apply (c : Dev nD) (r : Fin 8192) (i : Fin 4096) :
    (V m c main_v6 : FVec Ideal S8192x4096 .bf16) (ix2 r i)
      = (m ((c : Thread nD τ).loc main_arg0) : FVec Ideal S4x2048x4096 .f32)
          (ix3 ⟨r.val / 2048, by have := r.isLt; omega⟩ ⟨r.val % 2048, Nat.mod_lt _ (by norm_num)⟩ i) := by
  have e := congrFun (V_lhs_eq m c) (ix2 r i)
  refine e.trans ?_
  rw [truncf_apply]
  refine shapeCast_apply (argX m c) _ _ _ ?_
  rw [Shape.rowMajor_val_three, Shape.rowMajor_val_two]
  show (r.val / 2048 * 2048 + r.val % 2048) * 4096 + i.val = r.val * 4096 + i.val
  have := Nat.div_add_mod' r.val 2048
  omega

/-- Entry `(i, o)` of the region's weight is the effective weight's entry `(o, i)`. -/
theorem rhs_apply (c : Dev nD) (i o : Fin 4096) :
    (V m c main_v7 : FVec Ideal S4096x4096 .bf16) (ix2 i o)
      = (m ((c : Thread nD τ).loc main_arg1) : FVec Ideal S4096x4096 .f32) (ix2 o i)
        +ₑ Cert.Lora.scale * Cert.Lora.delta (m ((c : Thread nD τ).loc main_arg3)) (m ((c : Thread nD τ).loc main_arg4)) o i := by
  have e := congrFun (V_rhs_eq m c) (ix2 i o)
  refine e.trans ?_
  rw [truncf_apply, transpose_ix2_apply, addf_apply, mulf_apply, lowRank_apply]
  rw [broadcastInDim_apply _ bcast_S_S4096x4096 _ (ix2 o i) ix0 (fun a => a.elim0), constant_apply]
  rfl

/-- The one-row bias at column `o` is the bias at `o`. -/
theorem bias_apply (c : Dev nD) (o : Fin 4096) :
    (V m c main_v8 : FVec Ideal S1x4096 .f32) (ix2 (0 : Fin 1) o)
      = (m ((c : Thread nD τ).loc main_arg2) : FVec Ideal S4096 .f32) (ix1 o) := by
  have e := congrFun (V_bias_eq m c) (ix2 (0 : Fin 1) o)
  exact e.trans (shapeCast_a_1a_apply _ _ 0 o)

end Cert.Lora.HostPrefix

end
-- ==== Proof.Algebra.lean ====
/-
  The algebra behind the two arrangements of a linear layer with a low-rank adapter.

  Where every entry is a real number, one product with the effective weight W + s·Δ equals the base product plus
  the scaled adapter product:

    (∑ i, x i · (w i + s · d i)) + β = ((∑ i, x i · w i) + β) + (∑ i, x i · d i) · s.

  This is distributivity and commutativity in ℝ. The extended reals are not distributive at the infinities, so the
  law is first proved in ℝ, then carried to the extended reals through the coercion, which commutes with sums,
  products and finite sums of reals. The scale s is the real number 2; only its being real matters.

  A second, independent fact: a sum over 4096 indices is the sum over four consecutive blocks of 1024.
-/
import proofs.«142965_j13726715478236_1_alg».proof.Proof.Spec
import Mathlib.Data.EReal.Basic
import Mathlib.Algebra.BigOperators.Ring.Finset
import Mathlib.Data.Fintype.BigOperators
import Mathlib.Logic.Equiv.Fin.Basic
import Mathlib.Tactic.Ring
import Mathlib.Tactic.NormNum

noncomputable section

namespace Cert.Lora

open Idealize.ShloMosaic Idealize.ShloMosaic.ValueIdx

/-- The scale's f32 word denotes the real number 2. -/
theorem scale_eq : scale = ((2 : ℝ) : EReal) := by
  simp [scale, Ideal.ofBits, Ideal.ieee, -EReal.coe_mul]; norm_num

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law in ℝ: distribute x i over the effective weight, split the sum, and pull the scale out. -/
theorem real_law {ι : Type*} [Fintype ι] (x w d : ι → ℝ) (s β : ℝ) :
    (∑ i, x i * (w i + s * d i)) + β = ((∑ i, x i * w i) + β) + (∑ i, x i * d i) * s := by
  have h : ∀ i, x i * (w i + s * d i) = x i * w i + x i * d i * s := fun i => by ring
  simp only [h, Finset.sum_add_distrib, Finset.sum_mul]
  ring

/-- The law over the extended reals, for real entries, with the adapter's update spelled as its sum over the rank. -/
theorem ereal_law {ι κ : Type*} [Fintype ι] [Fintype κ] (x w : ι → ℝ) (bB : κ → ℝ) (aA : κ → ι → ℝ) (s β : ℝ) :
    (∑ i, (x i : EReal) * ((w i : EReal) + (s : EReal) * ∑ r, (bB r : EReal) * (aA r i : EReal))) + (β : EReal)
      = ((∑ i, (x i : EReal) * (w i : EReal)) + (β : EReal))
        + (∑ i, (x i : EReal) * ∑ r, (bB r : EReal) * (aA r i : EReal)) * (s : EReal) := by
  simp only [← EReal.coe_mul, ← coe_finset_sum, ← EReal.coe_add]
  exact congrArg _ (real_law x w (fun i => ∑ r, bB r * aA r i) s β)

/-- The two arrangements agree on arrays whose entries are all real. -/
theorem folded_eq_unfolded (x : FVec Ideal SX .f32) (W : FVec Ideal SW .f32) (b : FVec Ideal SBias .f32)
    (A : FVec Ideal SA .f32) (B : FVec Ideal SB .f32)
    (hx : AllReal x) (hW : AllReal W) (hb : AllReal b) (hA : AllReal A) (hB : AllReal B) :
    folded x W b A B = unfolded x W b A B := by
  choose x' hx' using hx
  choose W' hW' using hW
  choose b' hb' using hb
  choose A' hA' using hA
  choose B' hB' using hB
  funext j
  unfold folded unfolded delta
  rw [scale_eq]
  simp only [hx', hW', hb', hA', hB']
  exact ereal_law (fun i => x' (ix3 (j 0) (j 1) i)) (fun i => W' (ix2 (j 2) i))
    (fun r => B' (ix2 (j 2) r)) (fun r i => A' (ix2 r i)) 2 (b' (ix1 (j 2)))

/-- A sum over 4096 indices, cut into four consecutive blocks of 1024: index 1024·k + kk is block k, offset kk. -/
theorem sum_four_blocks {M : Type*} [AddCommMonoid M] (f : Fin 4096 → M) :
    ∑ i, f i = ∑ k : Fin 4, ∑ kk : Fin 1024,
      f ⟨1024 * k.val + kk.val, by have := k.isLt; have := kk.isLt; omega⟩ := by
  have e := Equiv.sum_comp (finProdFinEquiv : Fin 4 × Fin 1024 ≃ Fin (4 * 1024)) f
  rw [← e, Fintype.sum_prod_type]
  refine Finset.sum_congr rfl (fun k _ => Finset.sum_congr rfl (fun kk _ => ?_))
  congr 1
  ext
  simp [finProdFinEquiv]
  omega

end Cert.Lora

end
-- ==== Proof.KernelValue.lean ====
/-
  The kernel's result as one function of its five argument arrays.

  The region's output array [8192, 4096] is tiled by 32 blocks of 1024 × 1024; the block at (row block, column block)
  is written back once, by the last point of its contraction run, and holds at (p, q) the four slab sums added in order
  to zero, plus the bias entry. Re-indexing the four slabs as one sum over the contracted axis, that is the folded form
  of the layer at row R = 1024·(row block) + p (the flattened (batch, position) pair R / 2048, R % 2048) and column
  C = 1024·(column block) + q. The blocks tile the array, so the whole array is that function; the program's last
  operation reshapes it back to [4, 2048, 4096].
-/
import proofs.«142965_j13726715478236_1_alg».proof.Proof.Blocks
import proofs.«142965_j13726715478236_1_alg».proof.Proof.PointValue
import proofs.«142965_j13726715478236_1_alg».proof.Proof.HostPrefix
import proofs.«142965_j13726715478236_1_alg».proof.Proof.Algebra
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Lora.KernelValue

open Cert.KernelIdeal Cert.KernelIdeal.Gen Cert.Lora.Pieces Cert.Lora.Chain Cert.Lora.Blocks Cert.Lora.PointValue
open Cert.Lora.HostPrefix (argX argW argBias argA argB)

variable (m : (ℓ : Loc nD τ sig) → Buf (Elt Ideal) ℓ) (ρ : Dev nD → PrngReg)

/-- The folded layer as a function of the five arguments on core `c`. -/
abbrev layer (c : Dev nD) : FVec Ideal SX .f32 :=
  folded (argX m c) (argW m c) (argBias m c) (argA m c) (argB m c)

/-- One summand of the folded layer at flattened row `R` and column `C`. -/
def summand (c : Dev nD) (R : Fin 8192) (C : Fin 4096) (i : Fin 4096) : EReal :=
  argX m c (ix3 ⟨R.val / 2048, by have := R.isLt; omega⟩ ⟨R.val % 2048, Nat.mod_lt _ (by norm_num)⟩ i)
    * (argW m c (ix2 C i) + scale * delta (argA m c) (argB m c) C i)

/-- The region's result array: row `R` of the flattened product is entry (R / 2048, R % 2048) of the layer. -/
def regionResult (c : Dev nD) : FVec Ideal S8192x4096 .f32 := fun j =>
  layer m c (ix3 ⟨(j 0).val / 2048, by have := idx2_lt0 j; omega⟩ ⟨(j 0).val % 2048, Nat.mod_lt _ (by norm_num)⟩ (j 1))

theorem regionResult_apply (c : Dev nD) (R : Fin 8192) (C : Fin 4096) :
    regionResult m c (ix2 R C) = (∑ i : Fin 4096, summand m c R C i) + argBias m c (ix1 C) := rfl

/-- One slab's sum of products of the two input blocks is that slab of the layer's sum. -/
theorem slab_sum (c : Dev nD) (n j : ℕ) (hnj : n + j < cfg0.N) (h : n % 4 = 0) (hj : j < 4) (p q : Fin 1024) :
    (∑ k : Fin 1024, ablk m c ⟨n + j, hnj⟩ (ix2 p k) * bblk m c ⟨n + j, hnj⟩ (ix2 k q))
      = ∑ k : Fin 1024, summand m c
          ⟨1024 * (n / 16) + p.val, by have := lt_N ⟨n + j, hnj⟩; have := p.isLt; dsimp only at *; omega⟩
          ⟨1024 * (n / 4 % 4) + q.val, by have := q.isLt; omega⟩
          ⟨1024 * j + k.val, by have := k.isLt; omega⟩ := by
  refine Finset.sum_congr rfl fun k _ => ?_
  have ea := (ablk_at m c n j hnj h hj p k).trans (HostPrefix.lhs_apply m c _ _)
  have eb := (bblk_at m c n j hnj h hj k q).trans (HostPrefix.rhs_apply m c _ _)
  rw [ea, eb]
  rfl

/-- Four slab sums added in order to zero, then the bias: the whole sum, then the bias. -/
theorem four_steps (f : Fin 4096 → EReal) (β : EReal) :
    ((((0 + ∑ k : Fin 1024, f ⟨1024 * 0 + k.val, by have := k.isLt; omega⟩)
        + ∑ k : Fin 1024, f ⟨1024 * 1 + k.val, by have := k.isLt; omega⟩)
        + ∑ k : Fin 1024, f ⟨1024 * 2 + k.val, by have := k.isLt; omega⟩)
        + ∑ k : Fin 1024, f ⟨1024 * 3 + k.val, by have := k.isLt; omega⟩) + β
      = (∑ i : Fin 4096, f i) + β := by
  rw [sum_four_blocks f, Fin.sum_univ_four, zero_add]
  rfl

/-- What the last point of the run starting at point `n` writes back, at (p, q). -/
theorem point_value (c : Dev nD) (n : ℕ) (hn : n + 1 + 1 + 1 < cfg0.N) (h : n % 4 = 0) (p q : Fin 1024) :
    (emit (step (step (step (step (zero (F := Ideal))
            (ablk m c ⟨n, by omega⟩) (bblk m c ⟨n, by omega⟩))
            (ablk m c ⟨n + 1, by omega⟩) (bblk m c ⟨n + 1, by omega⟩))
            (ablk m c ⟨n + 1 + 1, by omega⟩) (bblk m c ⟨n + 1 + 1, by omega⟩))
            (ablk m c ⟨n + 1 + 1 + 1, hn⟩) (bblk m c ⟨n + 1 + 1 + 1, hn⟩))
          (biasblk m c ⟨n + 1 + 1 + 1, hn⟩)) (ix2 p q)
      = regionResult m c (ix2
          ⟨1024 * (n / 16) + p.val, by have := lt_N ⟨n + 1 + 1 + 1, hn⟩; have := p.isLt; dsimp only at *; omega⟩
          ⟨1024 * (n / 4 % 4) + q.val, by have := q.isLt; omega⟩) := by
  rw [emit_apply, step_apply, step_apply, step_apply, step_apply, zero_apply, regionResult_apply]
  have s0 := slab_sum m c n 0 (by omega) h (by omega) p q
  have s1 := slab_sum m c n 1 (by omega) h (by omega) p q
  have s2 := slab_sum m c n 2 (by omega) h (by omega) p q
  have s3 := slab_sum m c n 3 (by omega) h (by omega) p q
  have eb := (biasblk_at m c n 3 (by omega) h (by omega) q).trans (HostPrefix.bias_apply m c _)
  show ((((0 + ∑ k : Fin 1024, ablk m c ⟨n + 0, _⟩ (ix2 p k) * bblk m c ⟨n + 0, _⟩ (ix2 k q))
        + ∑ k : Fin 1024, ablk m c ⟨n + 1, _⟩ (ix2 p k) * bblk m c ⟨n + 1, _⟩ (ix2 k q))
        + ∑ k : Fin 1024, ablk m c ⟨n + 2, _⟩ (ix2 p k) * bblk m c ⟨n + 2, _⟩ (ix2 k q))
        + ∑ k : Fin 1024, ablk m c ⟨n + 3, _⟩ (ix2 p k) * bblk m c ⟨n + 3, _⟩ (ix2 k q))
      + biasblk m c ⟨n + 3, _⟩ (ix2 (0 : Fin 1) q) = _
  rw [s0, s1, s2, s3, eb]
  exact four_steps _ _

end Cert.Lora.KernelValue

end
-- ==== Proof.KernelRun.lean ====
/-
  From the blocks to the program's result.

  The output window's block at grid point t is written back exactly when t is the last point of its contraction run,
  and then holds block t of the region's result array (the folded layer on flattened rows). Every index (R, C) of the
  [8192, 4096] array lies in the block of the point 16·(R / 1024) + 4·(C / 1024) + 3, so after the run the array IS that
  function. The one host operation after the region reshapes it to [4, 2048, 4096]: entry (a, s, o) reads flattened
  row 2048·a + s, which is entry (a, s, o) of the layer.
-/
import proofs.«142965_j13726715478236_1_alg».proof.Proof.KernelValue

noncomputable section

open Idealize.ShloMosaic Idealize.ShloMosaic.TcCoe Idealize.SL.Sem Idealize.ShloMosaic.ValueIdx
open Idealize.ShloMosaic.Pipeline (Dat)

namespace Cert.Lora.KernelRun

open Cert.KernelIdeal Cert.KernelIdeal.Gen Cert.Lora.Pieces Cert.Lora.Chain Cert.Lora.Blocks Cert.Lora.PointValue
open Cert.Lora.KernelValue
open Cert.Lora.HostPrefix (argX argW argBias argA argB)

variable (m : (ℓ : Loc nD τ sig) → Buf (Elt Ideal) ℓ) (ρ : Dev nD → PrngReg)

/-- What a flushing point writes back is its block of the region's result array. -/
theorem flushed_eq (c : Dev nD) (t : Fin cfg0.N) (hf : (cfg0.win 3).flush t = true) :
    (dats m 0 c).flushed 3 t = ((cfg0.win 3).blk t).view.read (Elt Ideal) (regionResult m c) := by
  have h3 : t.val % 4 = 3 := (flush0_3 t).mp hf
  obtain ⟨tv, htv⟩ := t
  dsimp only at h3
  obtain ⟨n, rfl⟩ : ∃ n, tv = n + 1 + 1 + 1 := ⟨tv - 3, by omega⟩
  have hn4 : n % 4 = 0 := by omega
  obtain ⟨-, -, -, -, -, -, e0, e1⟩ := idx_facts ⟨n + 1 + 1 + 1, htv⟩
  have hN := lt_N ⟨n + 1 + 1 + 1, htv⟩
  dsimp only at e0 e1 hN
  show (cfg0.win 3).cut (grid0.coords ⟨n + 1 + 1 + 1, htv⟩) ((dats m 0 c).after 3 ⟨n + 1 + 1 + 1, htv⟩) = _
  rw [after0_3]
  funext y
  rw [View.read_apply]
  have hy0 : (y 0).val < 1024 := lt_of_lt_of_le (y 0).isLt ((cfg0.win 3).xsize_le (grid0.coords ⟨n + 1 + 1 + 1, htv⟩) 0)
  have hy1 : (y 1).val < 1024 := lt_of_lt_of_le (y 1).isLt ((cfg0.win 3).xsize_le (grid0.coords ⟨n + 1 + 1 + 1, htv⟩) 1)
  have hx : (cfg0.win 3).xinj (grid0.coords ⟨n + 1 + 1 + 1, htv⟩) y = ix2 (⟨(y 0).val, hy0⟩ : Fin 1024) (⟨(y 1).val, hy1⟩ : Fin 1024) :=
    funext fun a => match a with
      | ⟨0, _⟩ => rfl
      | ⟨1, _⟩ => rfl
  show (outsAt0 m c (n + 1 + 1 + 1) htv).1 ((cfg0.win 3).xinj (grid0.coords ⟨n + 1 + 1 + 1, htv⟩) y)
    = regionResult m c (((cfg0.win 3).blk ⟨n + 1 + 1 + 1, htv⟩).view.emb y)
  rw [hx, run_out m c n htv hn4, point_value m c n htv hn4]
  refine congrArg (regionResult m c) (funext fun a => Fin.ext ?_)
  match a with
  | ⟨0, _⟩ =>
    show 1024 * (n / 16) + (y 0).val = win0_3.index ⟨n + 1 + 1 + 1, htv⟩ (0 : Fin 2) * 1024 + 1 * (y 0).val
    rw [e0]; omega
  | ⟨1, _⟩ =>
    show 1024 * (n / 4 % 4) + (y 1).val = win0_3.index ⟨n + 1 + 1 + 1, htv⟩ (1 : Fin 2) * 1024 + 1 * (y 1).val
    rw [e1]; omega

/-- An index of the result array is in point t's block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v9).slice (win0_3.rect t)).set ↔ _
  rw [View.set_slice_whole, Rect.mem_set_unit]
  exact Iff.rfl

/-- Every index of the result array is in the block of a flushing point. -/
theorem cover (i : S8192x4096.Idx) :
    ∃ t : Fin cfg0.N, (cfg0.win 3).flush t = true ∧ i ∈ ((cfg0.win 3).blk t).view.set := by
  have hi0 : (i 0).val < 8192 := idx2_lt0 i
  have hi1 : (i 1).val < 4096 := idx2_lt1 i
  obtain ⟨tv, htvdef⟩ : ∃ tv, tv = 16 * ((i 0).val / 1024) + 4 * ((i 1).val / 1024) + 3 := ⟨_, rfl⟩
  have htv : tv < cfg0.N := by rw [show cfg0.N = 128 from N_0]; omega
  refine ⟨⟨tv, htv⟩, (flush0_3 _).mpr (by show tv % 4 = 3; omega), ?_⟩
  obtain ⟨-, -, -, -, -, -, e0, e1⟩ := idx_facts ⟨tv, htv⟩
  dsimp only at e0 e1
  rw [mem_blk]
  intro a
  match a with
  | ⟨0, _⟩ =>
    show win0_3.index ⟨tv, htv⟩ (0 : Fin 2) * 1024 ≤ (i 0).val ∧ (i 0).val < win0_3.index ⟨tv, htv⟩ (0 : Fin 2) * 1024 + 1024
    rw [e0]; omega
  | ⟨1, _⟩ =>
    show win0_3.index ⟨tv, htv⟩ (1 : Fin 2) * 1024 ≤ (i 1).val ∧ (i 1).val < win0_3.index ⟨tv, htv⟩ (1 : Fin 2) * 1024 + 1024
    rw [e1]; omega

/-- So the result array ends holding the folded layer on flattened rows. -/
theorem final (c : Dev nD) : (dats m 0 c).arrAt 3 cfg0.N = regionResult m c :=
  (dats m 0 c).arrAt_eq_of_cover 3 (regionResult m c) (flushed_eq m c) cover

/-- The reshape back to [4, 2048, 4096] of the region's result array is the layer. -/
theorem reshape_result (c : Dev nD) :
    (shapeCast S4x2048x4096 (regionResult m c) shapeCasts_S8192x4096_S4x2048x4096 : FVec Ideal S4x2048x4096 .f32) = layer m c := by
  funext j
  obtain ⟨a, s, o, rfl⟩ : ∃ (a : Fin 4) (s : Fin 2048) (o : Fin 4096), j = ix3 a s o := ⟨j 0, j 1, j 2, eq_ix3 j⟩
  have ha := a.isLt
  have hs := s.isLt
  rw [shapeCast_apply (regionResult m c) shapeCasts_S8192x4096_S4x2048x4096 (ix3 a s o)
    (ix2 (⟨2048 * a.val + s.val, by omega⟩ : Fin 8192) o)
    (by rw [Shape.rowMajor_val_two, Shape.rowMajor_val_three]; show (2048 * a.val + s.val) * 4096 + o.val = (a.val * 2048 + s.val) * 4096 + o.val; omega)]
  show layer m c (ix3 ⟨(2048 * a.val + s.val) / 2048, _⟩ ⟨(2048 * a.val + s.val) % 2048, _⟩ o) = layer m c (ix3 a s o)
  congr 1
  refine congrArg₂ (fun (u : Fin 4) (v : Fin 2048) => ix3 u v o) (Fin.ext ?_) (Fin.ext ?_)
  · show (2048 * a.val + s.val) / 2048 = a.val; omega
  · show (2048 * a.val + s.val) % 2048 = s.val; omega

end Cert.Lora.KernelRun

end
-- ==== Proof.Run.lean ====
/-
  The idealized kernel's run, read: every weakly fair execution ends with the result array at the folded layer of the
  five argument arrays, and the arguments unchanged.
-/
import proofs.«142965_j13726715478236_1_alg».proof.Proof.KernelRun

noncomputable section

open Idealize.ShloMosaic Idealize.ShloMosaic.TcCoe Idealize.SL.Sem Idealize.ShloMosaic.ValueIdx
open Idealize.ShloMosaic.Pipeline (Dat)

namespace Cert.Lora.KernelRun

open Cert.KernelIdeal Cert.KernelIdeal.Gen Cert.Lora.KernelValue

variable (m : (ℓ : Loc nD τ sig) → Buf (Elt Ideal) ℓ) (ρ : Dev nD → PrngReg)

/-- After the region, the last host operation leaves the result array at the layer. -/
theorem tail_result (c : Dev nD) :
    Pipeline.afterTail₀ cfgs (dats m) 0 (V0 m) [hostOps1] c main_v10 = layer m c := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.tc.devRef main_v9)
      = regionResult m c :=
    (Pipeline.withArrays_arr spec0 launch0.win.arr_inj c _ _ 3).trans (final m c)
  rw [e]
  exact reshape_result m c

/-- The run. -/
theorem run : θ_run defs (onTc (τ := τ) (main (F := Ideal))) ⟨m, fun _ => 0, ρ⟩ fun r => ∀ c : Dev nD,
      r.2.mem ((c.tc : Thread nD τ).loc main_v10) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v10 (Pipeline.mem_restRefs_of main_v10 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Lora.KernelRun

end
-- ==== Proof.RefValue.lean ====
/-
  The reference program computes the unfolded arrangement.

  Read one operation at a time, the reference's result at an index j = (p, q, o) is

    ((∑ i, x[p, q, i] · W[o, i]) + b[o]) + (∑ i, x[p, q, i] · (∑ r, B[o, r] · A[r, i])) · s

  where s is the f32 word of 2.0 (kept as a word on both sides). The operand indices the reading produces are
  functions on the axes given by cases; each is equal, axis by axis, to the index built from its coordinates,
  and with those equations the reading is the definition of the unfolded arrangement.
-/
import proofs.«142965_j13726715478236_1_alg».proof.Proof.Spec
import proofs.«142965_j13726715478236_1_alg».proof.Proof.Gen.ReferenceIdeal.Read

noncomputable section

namespace Cert.Lora.RefValue

open Idealize.ShloMosaic Idealize.ShloMosaic.ValueIdx Cert.ReferenceIdeal Cert.ReferenceIdeal.Read

/-! ## The operand indices, from their coordinates -/

/-- The base product reads x at (p, q, k). -/
theorem lidx_v0_eq (i : S4x2048x4096.Idx) (k : Fin 4096) : lidx_main_v0 i k = ix3 (i 0) (i 1) k :=
  funext fun a => Fin.ext (by match a with | ⟨0, _⟩ => rfl | ⟨1, _⟩ => rfl | ⟨2, _⟩ => rfl)

/-- The base product reads W at (o, k). -/
theorem ridx_v0_eq (i : S4x2048x4096.Idx) (k : Fin 4096) : ridx_main_v0 i k = ix2 (i 2) k :=
  funext fun a => Fin.ext (by match a with | ⟨0, _⟩ => rfl | ⟨1, _⟩ => rfl)

/-- The bias, broadcast twice, is read at o. -/
theorem idx_v1_v2_eq (i : S4x2048x4096.Idx) : idx_main_v1 (idx_main_v2 i) = ix1 (i 2) :=
  funext fun a => Fin.ext (by match a with | ⟨0, _⟩ => rfl)

/-- The adapter product reads x at (p, q, k). -/
theorem lidx_v5_eq (i : S4x2048x4096.Idx) (k : Fin 4096) : lidx_main_v5 i k = ix3 (i 0) (i 1) k :=
  funext fun a => Fin.ext (by match a with | ⟨0, _⟩ => rfl | ⟨1, _⟩ => rfl | ⟨2, _⟩ => rfl)

/-- Inside the adapter product, the update at (o, k) reads B at (o, r). -/
theorem lidx_v4_v5_eq (i : S4x2048x4096.Idx) (k : Fin 4096) (r : Fin 16) :
    lidx_main_v4 (ridx_main_v5 i k) r = ix2 (i 2) r :=
  funext fun a => Fin.ext (by match a with | ⟨0, _⟩ => rfl | ⟨1, _⟩ => rfl)

/-- Inside the adapter product, the update at (o, k) reads A at (r, k). -/
theorem ridx_v4_v5_eq (i : S4x2048x4096.Idx) (k : Fin 4096) (r : Fin 16) :
    ridx_main_v4 (ridx_main_v5 i k) r = ix2 r k :=
  funext fun a => Fin.ext (by match a with | ⟨0, _⟩ => rfl | ⟨1, _⟩ => rfl)

/-! ## The reference is the unfolded arrangement -/

theorem ref_value (x : FVec Ideal Cert.ReferenceIdeal.S4x2048x4096 .f32)
    (W : FVec Ideal Cert.ReferenceIdeal.S4096x4096 .f32) (b : FVec Ideal Cert.ReferenceIdeal.S4096 .f32)
    (A : FVec Ideal Cert.ReferenceIdeal.S16x4096 .f32) (B : FVec Ideal Cert.ReferenceIdeal.S4096x16 .f32) :
    Cert.ReferenceIdeal.Read.val_main_v8 (F := Ideal) x W b A B = Cert.Lora.unfolded x W b A B := by
  funext i
  rw [val_main_v8_apply, val_main_v3_apply, val_main_v7_apply, val_main_v0_apply, val_main_v2_apply,
    val_main_v1_apply, val_main_v5_apply, val_main_v6_apply, val_main_cst_apply]
  simp only [val_main_v4_apply, lidx_v0_eq, ridx_v0_eq, idx_v1_v2_eq, lidx_v5_eq, lidx_v4_v5_eq, ridx_v4_v5_eq,
    Ideal.addf_def, Ideal.mulf_def, Ideal.ofBits_def]
  unfold Cert.Lora.unfolded Cert.Lora.delta
  rfl

end Cert.Lora.RefValue

end
-- ==== Proof.Finite.lean ====
/-
  From the finiteness predicate to "every entry is a real number".

  The predicate takes, for each of the five arrays, the entrywise test |v| < +∞ (the absolute value as max v (-v),
  the bound as the f32 word 0x7F800000, which denotes ⊤), folds the tests of one array by "and" from "true" over all
  axes, and joins the five folds by "and". If the result is "true" then every fold is, hence every test is, and an
  extended real whose absolute value lies strictly below ⊤ is neither ⊤ nor ⊥, so it is a real number.
-/
import proofs.«142965_j13726715478236_1_alg».proof.Proof.Spec
import proofs.«142965_j13726715478236_1_alg».proof.Pre_finite_inputs
import proofs.«142965_j13726715478236_1_alg».proof.Proof.Gen.Pre_finite_inputs
import Idealize.ShloMosaic.Lib.ReduceAll

noncomputable section

namespace Cert.Lora.Finite

open Idealize.ShloMosaic

/-- A shape of rank 0 has exactly one index. -/
instance : Subsingleton Cert.Pre_finite_inputs.S_.Idx := ⟨fun a b => funext fun d => d.elim0⟩

/-- The f32 word 0x7F800000 denotes +∞. -/
theorem inf_eq_top : Ideal.ofBits .f32 0x7F800000#32 = (⊤ : EReal) := by
  simp [Ideal.ofBits, Ideal.ieee]

/-- An extended real whose absolute value lies strictly below ⊤ is a real number. -/
theorem real_of_abs_lt_top (v : EReal) (h : max v (-v) < ⊤) : ∃ r : ℝ, v = (r : EReal) := by
  induction v using EReal.rec with
  | bot => simp at h
  | coe r => exact ⟨r, rfl⟩
  | top => simp at h

/-- One entry: the test |v| < +∞ came out "true", so v is a real number. -/
theorem real_of_test (v : Ideal .f32)
    (h : FloatOps.cmpf .olt (FloatOps.hostAbsf v) (FloatOps.ofBits (F := Ideal) .f32 0x7F800000#32) = 1#1) :
    ∃ r : ℝ, v = (r : EReal) := by
  have h' : Ideal.cmp .olt (max (v : EReal) (-(v : EReal))) (Ideal.ofBits .f32 0x7F800000#32) = 1#1 := h
  rw [inf_eq_top] at h'
  unfold Ideal.cmp at h'
  refine real_of_abs_lt_top v ?_
  by_contra hn
  simp [hn] at h'

/-- One array, of any shape: if the "and" of all its entrywise tests |v| < +∞, folded from "true" into the one
    result index, is "true", then every entry is a real number. -/
theorem allReal_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf v)
            (broadcastInDim s ![] hb (constant Cert.Pre_finite_inputs.S_ .f32 0x7F800000#32)))
          (constantI Cert.Pre_finite_inputs.S_ 1 1#1) hr hu ValueIdx.ix0 = 1#1) :
    Cert.Lora.AllReal v := by
  intro j
  exact real_of_test (v j) (Host.reduce_andi_all _ _ hr hu ValueIdx.ix0 e j)

/-- The predicate came out "true": each of the five arrays holds real numbers only. -/
theorem allReal_of_pre (x : FVec Ideal Cert.Pre_finite_inputs.S4x2048x4096 .f32)
    (W : FVec Ideal Cert.Pre_finite_inputs.S4096x4096 .f32) (b : FVec Ideal Cert.Pre_finite_inputs.S4096 .f32)
    (A : FVec Ideal Cert.Pre_finite_inputs.S16x4096 .f32) (B : FVec Ideal Cert.Pre_finite_inputs.S4096x16 .f32)
    (h : Cert.Pre_finite_inputs.fn (F := Ideal) x W b A B = fun _ => 1#1) :
    Cert.Lora.AllReal x ∧ Cert.Lora.AllReal W ∧ Cert.Lora.AllReal b ∧ Cert.Lora.AllReal A ∧ Cert.Lora.AllReal B := by
  have h0 := congrFun h ValueIdx.ix0
  dsimp only [Cert.Pre_finite_inputs.fn, Cert.Pre_finite_inputs.fn_part1, andi] at h0
  obtain ⟨h1, hB⟩ := IntOp.andi_eq_one.1 h0
  obtain ⟨h2, hA⟩ := IntOp.andi_eq_one.1 h1
  obtain ⟨h3, hb⟩ := IntOp.andi_eq_one.1 h2
  obtain ⟨hx, hW⟩ := IntOp.andi_eq_one.1 h3
  exact ⟨allReal_of_all x _ _ _ hx, allReal_of_all W _ _ _ hW, allReal_of_all b _ _ _ hb,
    allReal_of_all A _ _ _ hA, allReal_of_all B _ _ _ hB⟩

end Cert.Lora.Finite

end
-- ==== Proof.lean ====
/-
  A linear layer with a low-rank adapter, computed two ways.

  The kernel folds the adapter into an effective weight on the host, W + s·(B·A), and runs ONE blocked matrix product
  x · (W + s·B·A)ᵀ + b: a grid of 8 × 4 × 4 points, each adding the product of a 1024 × 1024 block of x with a
  1024 × 1024 block of the effective weight into a running sum, the bias added when the fourth slab is done. The
  reference adds the base product x·Wᵀ + b and the scaled adapter product (x·(B·A)ᵀ)·s. Over the extended reals a change
  of float format is the identity and the blocked sum is the sum, so the kernel's result is the folded form and the
  reference's the unfolded form of the same layer; the two agree wherever every input entry is a real number, which
  is what the precondition says (the step from one to the other is distributivity, which fails at the infinities).

  The three frames: the two kernel programs' frames are the generated ones; the reference's is its run with the result
  dropped. The ideal pass rewrote nothing, so the idealization claim is trivial.
-/
import proofs.«142965_j13726715478236_1_alg».proof.Defs
import proofs.«142965_j13726715478236_1_alg».proof.Proof.Gen.Kernel
import proofs.«142965_j13726715478236_1_alg».proof.Proof.Gen.Kernel.Skeleton
import proofs.«142965_j13726715478236_1_alg».proof.Proof.Gen.Kernel.Launch
import proofs.«142965_j13726715478236_1_alg».proof.Proof.Gen.Kernel.Points
import proofs.«142965_j13726715478236_1_alg».proof.Proof.Gen.Kernel.Frame
import proofs.«142965_j13726715478236_1_alg».proof.Proof.Gen.KernelIdeal
import proofs.«142965_j13726715478236_1_alg».proof.Proof.Gen.KernelIdeal.Skeleton
import proofs.«142965_j13726715478236_1_alg».proof.Proof.Gen.KernelIdeal.Launch
import proofs.«142965_j13726715478236_1_alg».proof.Proof.Gen.KernelIdeal.Points
import proofs.«142965_j13726715478236_1_alg».proof.Proof.Gen.KernelIdeal.Frame
import proofs.«142965_j13726715478236_1_alg».proof.Proof.Gen.ReferenceIdeal
import proofs.«142965_j13726715478236_1_alg».proof.Proof.Gen.ReferenceIdeal.Run
import proofs.«142965_j13726715478236_1_alg».proof.Proof.Gen.ReferenceIdeal.Read
import proofs.«142965_j13726715478236_1_alg».proof.Proof.Gen.Pre_finite_inputs
import proofs.«142965_j13726715478236_1_alg».proof.Proof.Run
import proofs.«142965_j13726715478236_1_alg».proof.Proof.RefValue
import proofs.«142965_j13726715478236_1_alg».proof.Proof.Finite
import proofs.«142965_j13726715478236_1_alg».proof.Proof.Algebra
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the same layer: the kernel at its folded form, the reference at its unfolded form
    of arguments that agree, and the two forms are equal where the inputs are real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Lora.KernelValue.layer m c, Cert.Lora.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Lora.RefValue.ref_value, (hagree c).1, (hagree c).2.1, (hagree c).2.2.1,
    (hagree c).2.2.2.1, (hagree c).2.2.2.2]
  obtain ⟨hx, hW, hb, hA, hB⟩ := Cert.Lora.Finite.allReal_of_pre _ _ _ _ _ (hpre c)
  exact (Cert.Lora.folded_eq_unfolded _ _ _ _ _ hx hW hb hA hB).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
